-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S100000x512 : Shape := ⟨2, ![100000, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_

variable [Facts]

def fn {F : FTy → Type} [FloatOps F] (main_arg0 : FVec F S1024x512 .f32) (main_arg1 : FVec F S100000x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  main_v8
-- ==== Kernel.lean ====
abbrev S1024x512 : Shape := ⟨2, ![1024, 512]⟩
abbrev S100000x512 : Shape := ⟨2, ![100000, 512]⟩
abbrev S1024x100000 : Shape := ⟨2, ![1024, 100000]⟩
abbrev S2048x512 : Shape := ⟨2, ![2048, 512]⟩
abbrev S1024x2048 : Shape := ⟨2, ![1024, 2048]⟩

abbrev nBuf : Space → Nat
  | .hbm => 4
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S100000x512, .f32⟩
  | .hbm, ⟨2, _⟩ => ⟨S1024x512, .bf16⟩
  | .hbm, ⟨3, _⟩ => ⟨S1024x100000, .f32⟩
  | .local _ .vmem, ⟨0, _⟩ => ⟨S1024x512, .bf16⟩
  | .local _ .vmem, ⟨1, _⟩ => ⟨S2048x512, .f32⟩
  | .local _ .vmem, ⟨2, _⟩ => ⟨S2048x512, .f32⟩
  | .local _ .vmem, ⟨3, _⟩ => ⟨S1024x2048, .f32⟩
  | .local _ .vmem, ⟨4, _⟩ => ⟨S1024x2048, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  inb_S1024x2048_S1024x2048_0_0 : ∀ a, (![0, 0] : Fin 2 → Nat) a + S1024x2048.size a ≤ S1024x2048.size a
  h_S1024x2048 : 0 < S1024x2048.numel
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .bf16 = 32 ∨ (Rect.block (s := S1024x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x512.size a < S100000x512.size a
  hwx0_1 : ∀ i : grid0.Coords, EltTy.bits .f32 = 32 ∨ (Rect.unit (s := S100000x512) (fun a => cc0_transform_1 i a * S2048x512.size a) (fun a => (Pipeline.Clip.of (cc0_transform_1 i a) (S2048x512.size a) (S100000x512.size a)).extent (S2048x512.size a)) fun a => Pipeline.Clip.inb (Pipeline.Clip.ok_of (hstart0_1 i a))).WholeWords (EltTy.packing .f32)
  hwxs0_1 : ∀ i : grid0.Coords, EltTy.bits .f32 = 32 ∨ (Rect.unit (s := S2048x512) (fun _ => 0) (fun a => (Pipeline.Clip.of (cc0_transform_1 i a) (S2048x512.size a) (S100000x512.size a)).extent (S2048x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x2048.size a < S1024x100000.size a
  hwx0_2 : ∀ i : grid0.Coords, EltTy.bits .f32 = 32 ∨ (Rect.unit (s := S1024x100000) (fun a => cc0_transform_2 i a * S1024x2048.size a) (fun a => (Pipeline.Clip.of (cc0_transform_2 i a) (S1024x2048.size a) (S1024x100000.size a)).extent (S1024x2048.size a)) fun a => Pipeline.Clip.inb (Pipeline.Clip.ok_of (hstart0_2 i a))).WholeWords (EltTy.packing .f32)
  hwxs0_2 : ∀ i : grid0.Coords, EltTy.bits .f32 = 32 ∨ (Rect.unit (s := S1024x2048) (fun _ => 0) (fun a => (Pipeline.Clip.of (cc0_transform_2 i a) (S1024x2048.size a) (S1024x100000.size a)).extent (S1024x2048.size a)) fun a => (Nat.zero_add _).trans_le (Pipeline.Clip.extent_le (Pipeline.Clip.ok_of (hstart0_2 i a)))).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v0) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S2048x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v1) S1024x2048.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x512 : Shape := ⟨2, ![1024, 512]⟩
abbrev S100000x512 : Shape := ⟨2, ![100000, 512]⟩
abbrev S512x100000 : Shape := ⟨2, ![512, 100000]⟩
abbrev S1024x100000 : Shape := ⟨2, ![1024, 100000]⟩

abbrev nBuf : Space → Nat
  | .hbm => 4
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S100000x512, .f32⟩
  | .hbm, ⟨2, _⟩ => ⟨S512x100000, .f32⟩
  | .hbm, ⟨3, _⟩ => ⟨S1024x100000, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S100000x512_S512x100000_1_0 : S100000x512.Transposes [1, 0] S512x100000
  dot_S1024x512_S512x100000_S1024x100000_1_0_0_1_n_n_wf : DotDims.WF S1024x512 S512x100000 S1024x100000 [1] [0] [0] [1] [] []

variable [Facts₀]

def dot_S1024x512_S512x100000_S1024x100000_1_0_0_1_n_n : DotDims S1024x512 S512x100000 S1024x100000 where
  lhsContracting := [1]
  rhsContracting := [0]
  lhsNonContracting := [0]
  rhsNonContracting := [1]
  lhsBatch := []
  rhsBatch := []
  wf := dot_S1024x512_S512x100000_S1024x100000_1_0_0_1_n_n_wf

class Facts : Prop extends Facts₀ where

variable [Facts]
-- ==== Proof.KernelFrame.lean ====
/-
  The word-level kernel runs to the end and leaves its two argument arrays as they were.

  Nothing is said here of what the kernel computes. At each grid point the body only needs to own its three
  staging buffers: it loads two of them whole, loads the third (the value is not used) and overwrites it whole.
  So the proof data relate what a buffer held before the body to what it holds after by the relation that is
  always true, for every window; the pipeline's own rules then give that the feature array (which no window
  stages: the kernel stages its bf16 copy) and the weight array (staged, never written) end unchanged. That the
  last weight block runs past the array's end, and that its staging rows there hold words nobody names, does not
  matter to this claim: no access, branch or address depends on a loaded value.
-/
import proofs.«103286_g12781822673385_cont_fleet_1281_6_alg».proof.Proof.Gen.Kernel.Frame
import proofs.«103286_g12781822673385_cont_fleet_1281_6_alg».proof.Proof.Gen.Kernel.Skeleton
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body, owning its buffers and nothing more -/

set_option maxHeartbeats 1000000 in
/-- The body on whole staging buffers holding anything: it returns, each buffer again holding something. -/
theorem runs_body (c : Dev nD) (E : Set ℕ) (i : grid0.Coords)
    (arg1 : Memref sig .tc .vmem S1024x512 .bf16) (harg1 : arg1.IsWhole)
    (arg2 : Memref sig .tc .vmem S2048x512 .f32) (harg2 : arg2.IsWhole)
    (arg3 : Memref sig .tc .vmem S1024x2048 .f32) (harg3 : arg3.IsWhole) (K : PUnit → sProp 𝕄) :
    iprop((∃ x, owns (c : Thread nD τ) arg1 fullShare x) ∗ (∃ w, owns (c : Thread nD τ) arg2 fullShare w)
        ∗ (∃ o, owns (c : Thread nD τ) arg3 fullShare o)
        ∗ (iprop((∃ x, owns (c : Thread nD τ) arg1 fullShare x) ∗ (∃ w, owns (c : Thread nD τ) arg2 fullShare w)
            ∗ (∃ o, owns (c : Thread nD τ) arg3 fullShare o)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%x, %f0, -, H0⟩, ⟨%w, %f1, -, H1⟩, ⟨%o, %f2, -, H2⟩, Hk⟩
  sl_exec
  sl_step
  iapply Hk
  isplitl [H0]
  · iexists _, f0; isplitr; · ipureintro; rfl
    iexact H0
  isplitl [H1]
  · iexists _, f1; isplitr; · ipureintro; rfl
    iexact H1
  iexists _, _; isplitr
  swap; · iexact H2
  ipureintro; rfl

/-! ## The proof data: every window's relation says nothing -/

/-- On core `c`: the arrays as the region finds them; of what the body leaves in a staging buffer, nothing; the
    invariant the scoped rest and the generator register, untouched; nothing owed; full shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body obligation at every point: whatever the three current buffers hold, the body runs and hands them back. -/
theorem body_obligation (c : Dev nD) : (rdat (F := F) m c).BodyObligation (defs₀ (F := F)) Variants.none () Set.univ := fun t Y _ => by
  rw [bigSep_W0, bigSep_W0]
  show _ ⊢ wp frame (wpE (defs₀ (F := F)) Variants.none c none) Set.univ (bodyAt0 t) _
  rw [show (rdat m c).Φ t.succ = (rdat m c).Φ t.castSucc from rfl,
    show (rdat m c).owesAt () t.succ = (rdat m c).owesAt () t.castSucc from rfl]
  iintro ⟨HΦ, Ho, H0, H1, H2⟩
  iapply (runs_body (F := F) c Set.univ (grid0.coords t) _ _ _ _ _ _ _)
  isplitl [H0]; · iexists _; iexact H0
  isplitl [H1]; · iexists _; iexact H1
  isplitl [H2]; · iexists _; iexact H2
  iintro ⟨⟨%x, H0⟩, ⟨%w, H1⟩, ⟨%o, H2⟩⟩
  isplitl [HΦ]; · iexact HΦ
  isplitl [Ho]; · iexact Ho
  isplitl [H0]
  · iexists x; isplitr; · ipureintro; trivial
    iexact H0
  isplitl [H1]
  · iexists w; isplitr; · ipureintro; trivial
    iexact H1
  · iexists o; isplitr; · ipureintro; trivial
    iexact H2

/-! ## The run and the frame -/

set_option backward.isDefEq.respectTransparency.types false in
/-- Every weakly fair execution of @main terminates; every windowed array ends at contents the relations allow (an
    input: what it held), every other unscoped buffer as the region found it. -/
theorem run_main : θ_run defs (onTc (τ := τ) (main (F := F))) (s₀ m ρ) (RDat.FramePost cfg0 (rdat m) (V m)) :=
  Pipeline.RDat.θ_run_frame cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl) (hΦ := fun _ _ => rfl)

/-- The frame: the feature array is no window's array and no host operation writes it; the weight array is an input
    window's array. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (V_main_arg0 m c),
     (RDat.FramePost.arr_in h c (1 : Fin 3) rfl).trans (V_main_arg1 m c)⟩) (run_main m ρ)

end Cert.Kernel.Hand

end
-- ==== Proof.IdealBody.lean ====
/-
  The body of the matrix-product kernel at one grid point, as a triple over its three staging buffers.

  The body reads the whole feature block `x` (1024 × 512, bf16) and the whole weight block `w` (2048 × 512, f32),
  narrows `w` to bf16, multiplies `x` by the transpose of `w` into a zero accumulator, and stores the
  1024 × 2048 product over the whole result buffer. Whatever the three buffers held, the two inputs keep their
  contents and the result buffer ends holding that product of the two: `blockProduct x w`.
-/
import proofs.«103286_g12781822673385_cont_fleet_1281_6_alg».proof.Proof.Gen.KernelIdeal.Frame
import proofs.«103286_g12781822673385_cont_fleet_1281_6_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The three accesses of the body: each is its buffer whole, from offset zero. -/
abbrev rectX : Rect S1024x512 := Rect.unit (s := S1024x512) ![0, 0] S1024x512.size Gen.inb_S1024x512_S1024x512_0_0
abbrev rectW : Rect S2048x512 := Rect.unit (s := S2048x512) ![0, 0] S2048x512.size Gen.inb_S2048x512_S2048x512_0_0
abbrev rectO : Rect S1024x2048 := Rect.unit (s := S1024x2048) ![0, 0] S1024x2048.size Gen.inb_S1024x2048_S1024x2048_0_0

/-- What the result buffer holds after the body: its single store, of the product of the two loaded blocks. -/
def blockProduct (x : Vec F S1024x512 .bf16) (w : Vec F S2048x512 .f32) : Vec F S1024x2048 .f32 :=
  View.canon [⟨rectO, k0_pay1 (View.ld x rectX) (View.ld w rectW)⟩]

/-- The one store covers the whole result buffer. -/
theorem store_covers (p : Vec F S1024x2048 .f32) (y : S1024x2048.Idx) :
    ∃ pc ∈ ([⟨rectO, p⟩] : List (View.Piece (Elt F) S1024x2048 .f32)), y ∈ pc.1.set :=
  View.cover_of_tiled [⟨rectO, p⟩] S1024x2048.size (by rfl) y

set_option maxHeartbeats 1000000 in
/-- The body on whole staging buffers: the inputs at `x` and `w`, the result buffer at anything; it returns the inputs
    as they were and the result buffer at `blockProduct x w`. -/
theorem sound_kernel (c : Dev nD) (E : Set ℕ) (i : grid0.Coords)
    (arg1 : Memref sig .tc .vmem S1024x512 .bf16) (harg1 : arg1.IsWhole)
    (arg2 : Memref sig .tc .vmem S2048x512 .f32) (harg2 : arg2.IsWhole)
    (arg3 : Memref sig .tc .vmem S1024x2048 .f32) (harg3 : arg3.IsWhole)
    (x : Vec F S1024x512 .bf16) (w : Vec F S2048x512 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (blockProduct x w)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-- Every access is a whole buffer, so the result buffer simply holds the product of the two input buffers. -/
theorem blockProduct_eq (x : Vec F S1024x512 .bf16) (w : Vec F S2048x512 .f32) : blockProduct x w = k0_pay1 x w := by
  have hz : (![0, 0] : Fin 2 → Nat) = fun _ => 0 := funext fun a => by fin_cases a <;> rfl
  unfold blockProduct
  rw [View.canon_unit_zero hz]
  simp only [View.ld_unit_zero (S := S1024x512) hz, View.ld_unit_zero (S := S2048x512) hz]

end Cert.KernelIdeal.Hand

end
-- ==== Proof.BlockEntry.lean ====
/-
  One entry of the block product, over the extended reals.

  The body's value is `matmul x (bf16 w) 0` with the contraction on the second axis of both operands: narrowing to
  bf16 is the identity on extended reals and the accumulator is zero, so entry `(p, q)` of the 1024 × 2048 result
  is `∑ k, x[p, k] · w[q, k]` over the 512 columns. Row `q` of `w` is the only part of `w` the entry reads.
-/
import proofs.«103286_g12781822673385_cont_fleet_1281_6_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- The left operand is read at the result's row … -/
theorem lhs_row (j : S1024x2048.Idx) (r : dot_S1024x512_S2048x512_S1024x2048_1_1_0_0_n_n.contr.Idx) :
    (dot_S1024x512_S2048x512_S1024x2048_1_1_0_0_n_n.lhsIdx j r 0).val = (j 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl
/-- … and the contraction index; -/
theorem lhs_col (j : S1024x2048.Idx) (r : dot_S1024x512_S2048x512_S1024x2048_1_1_0_0_n_n.contr.Idx) :
    (dot_S1024x512_S2048x512_S1024x2048_1_1_0_0_n_n.lhsIdx j r 1).val = (r ⟨0, by decide⟩).val :=
  dot_S1024x512_S2048x512_S1024x2048_1_1_0_0_n_n.lhsIdx_val_of_single rfl j r
/-- the right operand at the result's COLUMN (as its row) … -/
theorem rhs_row (j : S1024x2048.Idx) (r : dot_S1024x512_S2048x512_S1024x2048_1_1_0_0_n_n.contr.Idx) :
    (dot_S1024x512_S2048x512_S1024x2048_1_1_0_0_n_n.rhsIdx j r 0).val = (j 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl
/-- … and the contraction index. -/
theorem rhs_col (j : S1024x2048.Idx) (r : dot_S1024x512_S2048x512_S1024x2048_1_1_0_0_n_n.contr.Idx) :
    (dot_S1024x512_S2048x512_S1024x2048_1_1_0_0_n_n.rhsIdx j r 1).val = (r ⟨0, by decide⟩).val :=
  dot_S1024x512_S2048x512_S1024x2048_1_1_0_0_n_n.rhsIdx_val_of_single rfl j r

/-- Entry `(p, q)` of the block product is the dot product of row `p` of `x` with row `q` of `w`. -/
theorem product_entry (x : FVec Ideal S1024x512 .bf16) (w : FVec Ideal S2048x512 .f32) (p : Fin 1024) (q : Fin 2048) :
    k0_pay1 (F := Ideal) x w (ix2 p q) = ∑ k : Fin 512, x (ix2 p k) * w (ix2 q k) := by
  unfold k0_pay1
  simp only [matmul]
  rw [Ideal.matmul_constant_zero_apply, ← Equiv.sum_comp (contrEquiv1 dot_S1024x512_S2048x512_S1024x2048_1_1_0_0_n_n 512 rfl rfl).symm]
  refine Finset.sum_congr rfl fun k _ => ?_
  have hk := contrEquiv1_symm_val dot_S1024x512_S2048x512_S1024x2048_1_1_0_0_n_n 512 rfl rfl k
  have el : dot_S1024x512_S2048x512_S1024x2048_1_1_0_0_n_n.lhsIdx (ix2 p q) ((contrEquiv1 dot_S1024x512_S2048x512_S1024x2048_1_1_0_0_n_n 512 rfl rfl).symm k) = ix2 p k := funext fun a => Fin.ext (by
    match a with
    | ⟨0, _⟩ => exact lhs_row _ _
    | ⟨1, _⟩ => exact (lhs_col _ _).trans hk)
  have er : dot_S1024x512_S2048x512_S1024x2048_1_1_0_0_n_n.rhsIdx (ix2 p q) ((contrEquiv1 dot_S1024x512_S2048x512_S1024x2048_1_1_0_0_n_n 512 rfl rfl).symm k) = ix2 q k := funext fun a => Fin.ext (by
    match a with
    | ⟨0, _⟩ => exact rhs_row _ _
    | ⟨1, _⟩ => exact (rhs_col _ _).trans hk)
  rw [el, er, shapeCast_self]
  rfl

end Cert.KernelIdeal.Hand

end
-- ==== Proof.Logits.lean ====
/-
  The specification: logits = features · weightsᵀ over the extended reals.

  For a 1024 × 512 feature matrix `x` and a 100000 × 512 weight matrix `w`, entry `(i, j)` of the 1024 × 100000
  result is the dot product of row `i` of `x` with row `j` of `w`: `∑ k, x[i, k] · w[j, k]`, the 512 terms in index
  order. Both programs compute exactly this sum, term by term, so no law of the extended reals beyond reading each
  side at an index is needed, and the inputs' finiteness plays no part.
-/
import Idealize.ShloMosaic.PureOps.Ideal
import Idealize.ShloMosaic.Lib.ValueIdx

noncomputable section

namespace Cert.Logits

open Idealize.ShloMosaic Idealize.ShloMosaic.ValueIdx

/-- The dot product of row `i` of `x` with row `j` of `w`. -/
def rowDot (x : FVec Ideal ⟨2, ![1024, 512]⟩ .f32) (w : FVec Ideal ⟨2, ![100000, 512]⟩ .f32) (i : Fin 1024) (j : Fin 100000) : EReal :=
  ∑ k : Fin 512, x (ix2 i k) * w (ix2 j k)

/-- The whole result, index by index. -/
def logits (x : FVec Ideal ⟨2, ![1024, 512]⟩ .f32) (w : FVec Ideal ⟨2, ![100000, 512]⟩ .f32) : FVec Ideal ⟨2, ![1024, 100000]⟩ .f32 :=
  fun i => rowDot x w ⟨(i 0).val, idx2_lt0 i⟩ ⟨(i 1).val, idx2_lt1 i⟩

theorem logits_apply (x : FVec Ideal ⟨2, ![1024, 512]⟩ .f32) (w : FVec Ideal ⟨2, ![100000, 512]⟩ .f32) (i : Fin 1024) (j : Fin 100000) :
    logits x w (ix2 i j) = rowDot x w i j := rfl

end Cert.Logits

end
-- ==== Proof.IdealData.lean ====
/-
  The idealized kernel's run, with the result array named.

  The grid has 49 points. Point `t` stages the whole feature matrix (as its bf16 copy, which over the extended
  reals is the matrix itself), rows `2048·t …` of the weight matrix, and writes columns `2048·t …` of the result.
  49 · 2048 = 100352 exceeds 100000, so at the last point only the first 1696 rows of the weight block come from the
  array — the other 352 rows of the staging buffer hold values nobody names — and only the first 1696 columns of the
  result block are written back.

  Entry `(p, q)` of the block product reads row `q` of the weight block and nothing else of it (`product_entry`).
  A column `q` that is written back lies inside the array, so row `q` of the weight block is a row of the array:
  on the part written back, the block product is the specification `logits` read through the block, whatever the
  unnamed rows hold (`written_eq`). The proof data therefore name, as what the body leaves in the result's buffer, the
  specification's block filled out with zeros; the obligation states the buffer only on the part written back. The
  blocks written back cover the result array (column `j` is in block `j / 2048`), so it ends holding `logits`.
-/
import proofs.«103286_g12781822673385_cont_fleet_1281_6_alg».proof.Proof.IdealBody
import proofs.«103286_g12781822673385_cont_fleet_1281_6_alg».proof.Proof.BlockEntry
import proofs.«103286_g12781822673385_cont_fleet_1281_6_alg».proof.Proof.Logits
import proofs.«103286_g12781822673385_cont_fleet_1281_6_alg».proof.Proof.Gen.KernelIdeal.Points
import Idealize.ShloMosaic.Lib.Pipeline.Value
import Idealize.ShloMosaic.Lib.StableHlo.Run

set_option maxRecDepth 16384

noncomputable section

namespace Cert.KernelIdeal.Hand

open Cert.KernelIdeal Cert.KernelIdeal.Gen Cert.Logits
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The arguments and the result to be shown -/

/-- The feature matrix and the weight matrix as launched, and the specification of them. -/
abbrev feats (c : Dev nD) : FVec Ideal S1024x512 .f32 := m ((c : Thread nD τ).loc main_arg0)
abbrev wts (c : Dev nD) : FVec Ideal S100000x512 .f32 := m ((c : Thread nD τ).loc main_arg1)
abbrev target (c : Dev nD) : FVec Ideal S1024x100000 .f32 := logits (feats m c) (wts m c)

/-! ## The proof data -/

/-- On core `c`: the arrays as the region finds them; after the body at point `t` the feature buffer at its block,
    the weight buffer at its block filled out with zeros, the result buffer at the specification's block filled out
    with zeros (the obligation states the last two on the part their transfers move only). -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => win0_2.fill (grid0.coords t) (fun _ => (0 : EReal)) ((win0_2.blk t).view.read (Elt Ideal) (target m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = win0_1.fill (grid0.coords t) (fun _ => (0 : EReal)) (iblk m c 1 t) := by dsimp only [dats]
theorem after0_2 (c : Dev nD) (t : Fin cfg0.N) :
    (dats m 0 c).after 2 t = win0_2.fill (grid0.coords t) (fun _ => (0 : EReal)) ((win0_2.blk t).view.read (Elt Ideal) (target m c)) := by
  dsimp only [dats]

/-- The feature buffer holds its block at every point (fetched at the first, left in place by the body after). -/
theorem before0 (c : Dev nD) (t : Fin cfg0.N) (d) : (dats m 0 c).before 0 t d = iblk m c 0 t :=
  before0_0_of m (dats m 0 c) (A_eq m c 0) (after0_0 m c) t d

/-- The weight buffer was just fetched into: its block on the rows inside the array, `d` on the others. -/
theorem before1 (c : Dev nD) (t : Fin cfg0.N) (d) :
    (dats m 0 c).before 1 t d = win0_1.fill (grid0.coords t) d (iblk m c 1 t) := by
  rw [(dats m 0 c).before_fetched 1 t (fetch0_1 t)]
  unfold Dat.fetched Dat.blockOf iblk
  rw [A_eq]

/-- The result buffer was just written back, or never used: it holds anything. -/
theorem before2 (c : Dev nD) (t : Fin cfg0.N) (d) : (dats m 0 c).before 2 t d = d := by
  refine (dats m 0 c).before_out_reset 2 rfl t ?_ d
  by_cases h : t.val = 0
  · exact .inl h
  · exact .inr ⟨h, flush0_2 _⟩

/-! ## Where the blocks sit -/

/-- Decided once over the 49 points: every block index, and how many rows (columns) of the weight (result) block
    lie inside the array. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_1.xsize (grid0.coords t) (0 : Fin 2) = min 2048 (100000 - t.val * 2048)
    ∧ win0_1.xsize (grid0.coords t) (1 : Fin 2) = 512
    ∧ win0_2.xsize (grid0.coords t) (0 : Fin 2) = 1024
    ∧ win0_2.xsize (grid0.coords t) (1 : Fin 2) = min 2048 (100000 - t.val * 2048) :=
  (by decide +kernel : ∀ t : Fin grid0.N, _)

/-- The staged bf16 copy of the features is, over the extended reals, the feature matrix. -/
theorem staged_feats (c : Dev nD) : (V m c main_v0 : S1024x512.Idx → EReal) = feats m c := by
  dsimp only [Gen.V, Gen.hostOps0]; after_results; rfl

/-- An entry of the staged feature block is that entry of the feature matrix. -/
theorem xblk_entry (c : Dev nD) (t : Fin cfg0.N) (p : Fin 1024) (k : Fin 512) :
    (iblk m c 0 t : S1024x512.Idx → EReal) (ix2 p k) = feats m c (ix2 p k) := by
  obtain ⟨e00, e01, -⟩ := idx_facts t
  show (V m c main_v0 : S1024x512.Idx → EReal) (((cfg0.win 0).blk t).view.emb (ix2 p k)) = _
  rw [staged_feats]
  refine congrArg (feats m c) (funext fun a => Fin.ext ?_)
  match a with
  | ⟨0, _⟩ => show win0_0.index t (0 : Fin 2) * 1024 + 1 * p.val = p.val; omega
  | ⟨1, _⟩ => show win0_0.index t (1 : Fin 2) * 512 + 1 * k.val = k.val; omega

/-- Row `q` of the staged weight block, when it lies inside the array, is row `2048·t + q` of the weight matrix,
    whatever the rest of the buffer holds. -/
theorem wblk_entry (c : Dev nD) (t : Fin cfg0.N) (d : S2048x512.Idx → EReal) (q : Fin 2048) (k : Fin 512)
    (hq : t.val * 2048 + q.val < 100000) :
    (win0_1.fill (grid0.coords t) d (iblk m c 1 t) : S2048x512.Idx → EReal) (ix2 q k) = wts m c (ix2 ⟨t.val * 2048 + q.val, hq⟩ k) := by
  obtain ⟨-, -, e10, e11, -, -, s10, s11, -⟩ := idx_facts t
  let j : (win0_1.xblock (grid0.coords t)).Idx := fun a => match a with
    | ⟨0, _⟩ => ⟨q.val, by show q.val < win0_1.xsize (grid0.coords t) (0 : Fin 2); rw [s10]; have := q.isLt; omega⟩
    | ⟨1, _⟩ => ⟨k.val, by show k.val < win0_1.xsize (grid0.coords t) (1 : Fin 2); rw [s11]; exact k.isLt⟩
  have hj : (ix2 q k : S2048x512.Idx) = win0_1.xinj (grid0.coords t) j := funext fun a => by
    match a with
    | ⟨0, _⟩ => rfl
    | ⟨1, _⟩ => rfl
  rw [hj, Window.fill_xinj]
  show (V m c main_arg1 : S100000x512.Idx → EReal) (((cfg0.win 1).blk t).view.emb j) = _
  rw [V_main_arg1]
  refine congrArg (wts m c) (funext fun a => Fin.ext ?_)
  match a with
  | ⟨0, _⟩ => show win0_1.index t (0 : Fin 2) * 2048 + 1 * q.val = t.val * 2048 + q.val; omega
  | ⟨1, _⟩ => show win0_1.index t (1 : Fin 2) * 512 + 1 * k.val = k.val; omega

/-- THE PART WRITTEN BACK: on the columns inside the array the block product is the specification read through the
    result's block, whatever the weight buffer holds on the rows outside the array. -/
theorem written_eq (c : Dev nD) (t : Fin cfg0.N) (d : S2048x512.Idx → EReal) :
    win0_2.cut (grid0.coords t) (k0_pay1 (F := Ideal) (iblk m c 0 t) (win0_1.fill (grid0.coords t) d (iblk m c 1 t)))
      = (win0_2.blk t).view.read (Elt Ideal) (target m c) := by
  obtain ⟨-, -, -, -, e20, e21, -, -, s20, s21⟩ := idx_facts t
  funext j
  have hp : (j 0).val < win0_2.xsize (grid0.coords t) (0 : Fin 2) := (j 0).isLt
  have hq : (j 1).val < win0_2.xsize (grid0.coords t) (1 : Fin 2) := (j 1).isLt
  rw [s20] at hp; rw [s21] at hq
  have ht : t.val < 49 := lt_of_lt_of_eq t.isLt N_0
  have hq' : t.val * 2048 + (j 1).val < 100000 := by omega
  show k0_pay1 (F := Ideal) _ _ (win0_2.xinj (grid0.coords t) j) = target m c ((win0_2.blk t).view.emb j)
  have hj : win0_2.xinj (grid0.coords t) j = (ix2 (⟨(j 0).val, hp⟩ : Fin 1024) (⟨(j 1).val, by omega⟩ : Fin 2048) : S1024x2048.Idx) :=
    funext fun a => by
      match a with
      | ⟨0, _⟩ => rfl
      | ⟨1, _⟩ => rfl
  have hi : (win0_2.blk t).view.emb j = (ix2 (⟨(j 0).val, hp⟩ : Fin 1024) (⟨t.val * 2048 + (j 1).val, hq'⟩ : Fin 100000) : S1024x100000.Idx) :=
    funext fun a => Fin.ext (by
      match a with
      | ⟨0, _⟩ => show win0_2.index t (0 : Fin 2) * 1024 + 1 * (j 0).val = (j 0).val; omega
      | ⟨1, _⟩ => show win0_2.index t (1 : Fin 2) * 2048 + 1 * (j 1).val = t.val * 2048 + (j 1).val; omega)
  rw [hj, hi, product_entry]
  show _ = rowDot (feats m c) (wts m c) ⟨(j 0).val, hp⟩ ⟨t.val * 2048 + (j 1).val, hq'⟩
  unfold rowDot
  refine Finset.sum_congr rfl fun k _ => ?_
  rw [xblk_entry, wblk_entry m c t d _ k hq']

/-! ## The body obligation -/

theorem body_obligation (c : Dev nD) : BodyObligationLoose (dats m 0 c) (defs₀ (F := Ideal)) Variants.none () Set.univ := fun t => by
  rw [bigSep_W0, bigSep_W0]
  simp only
  show _ ⊢ wp frame (wpE (defs₀ (F := Ideal)) Variants.none c none) Set.univ (bodyAt0 t) _
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0 m c t d0, before1 m c t d1, before2 m c t d2]
  iapply (sound_kernel (F := Ideal) c Set.univ (grid0.coords t) _ _ _ _ _ _ (iblk m c 0 t)
    (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  -- the weight buffer is handed back as it came: its block, filled out with the same `d1`
  have h1 : (win0 1).fill (grid0.coords t) d1 ((win0 1).cut (grid0.coords t) ((dats m 0 c).after 1 t))
      = win0_1.fill (grid0.coords t) d1 (iblk m c 1 t) := by
    rw [after0_1]; exact congrArg (win0_1.fill (grid0.coords t) d1) (win0_1.cut_fill _ _ _)
  -- the result buffer holds the block product, which on the part written back is the specification's block
  have h2 : (win0 2).fill (grid0.coords t) (blockProduct (iblk m c 0 t) (win0_1.fill (grid0.coords t) d1 (iblk m c 1 t)))
        ((win0 2).cut (grid0.coords t) ((dats m 0 c).after 2 t))
      = blockProduct (iblk m c 0 t) (win0_1.fill (grid0.coords t) d1 (iblk m c 1 t)) := by
    rw [after0_2]
    refine win0_2.fill_congr_cut (grid0.coords t) ?_
    rw [blockProduct_eq, written_eq]
    exact (win0_2.cut_fill _ _ _).symm
  isplitl [H0]
  · rw [after0_0]; iexact H0
  isplitl [H1]
  · iexists d1; rw [h1]; iexact H1
  · iexists _; rw [h2]; iexact H2

/-! ## The run and the frame -/

set_option backward.isDefEq.respectTransparency.types false in
/-- Every weakly fair execution of @main terminates; every windowed array ends at what the proof data compute, every
    other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The two argument arrays end unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-! ## The result array -/

/-- What point `t` writes back is the specification read through the result's block at `t`. -/
theorem flushed_eq (c : Dev nD) (t : Fin cfg0.N) :
    (dats m 0 c).flushed 2 t = ((cfg0.win 2).blk t).view.read (Elt Ideal) (target m c) := by
  show (cfg0.win 2).cut (grid0.coords t) ((dats m 0 c).after 2 t) = _
  rw [after0_2]
  exact win0_2.cut_fill _ _ _

/-- An index of the result array is under point `t`'s block iff each coordinate is in the block's part inside the array. -/
theorem mem_blk (t : Fin cfg0.N) (i : S1024x100000.Idx) :
    i ∈ ((cfg0.win 2).blk t).view.set ↔ ∀ a : Fin 2, win0_2.index t a * S1024x2048.size a ≤ (i a).val
      ∧ (i a).val < win0_2.index t a * S1024x2048.size a + win0_2.xsize (grid0.coords t) a := by
  show i ∈ ((View.whole main_v1).slice (win0_2.rect t)).set ↔ _
  rw [View.set_slice_whole, Rect.mem_set_unit]
  exact Iff.rfl

/-- Column `j` of the result is written back by point `j / 2048`: the blocks written back cover the array. -/
theorem covered (i : S1024x100000.Idx) :
    ∃ t : Fin cfg0.N, (cfg0.win 2).flush t = true ∧ i ∈ ((cfg0.win 2).blk t).view.set := by
  have h0 : (i 0).val < 1024 := (i 0).isLt
  have h1 : (i 1).val < 100000 := (i 1).isLt
  have ht : (i 1).val / 2048 < cfg0.N := lt_of_lt_of_eq (by omega : (i 1).val / 2048 < 49) N_0.symm
  refine ⟨⟨(i 1).val / 2048, ht⟩, flush0_2 _, ?_⟩
  obtain ⟨-, -, -, -, e20, e21, -, -, s20, s21⟩ := idx_facts ⟨(i 1).val / 2048, ht⟩
  rw [mem_blk]
  intro a
  match a with
  | ⟨0, _⟩ =>
    show win0_2.index _ (0 : Fin 2) * 1024 ≤ (i 0).val ∧ (i 0).val < win0_2.index _ (0 : Fin 2) * 1024 + win0_2.xsize _ (0 : Fin 2)
    rw [e20, s20]; omega
  | ⟨1, _⟩ =>
    show win0_2.index _ (1 : Fin 2) * 2048 ≤ (i 1).val ∧ (i 1).val < win0_2.index _ (1 : Fin 2) * 2048 + win0_2.xsize _ (1 : Fin 2)
    rw [e21, s21]; show (i 1).val / 2048 * 2048 ≤ (i 1).val ∧ (i 1).val < (i 1).val / 2048 * 2048 + min 2048 (100000 - (i 1).val / 2048 * 2048); omega

/-- The result array after the run is the specification of the two arguments. -/
theorem final (c : Dev nD) : (dats m 0 c).arrAt 2 cfg0.N = target m c :=
  (dats m 0 c).arrAt_eq_of_cover 2 (target m c) (fun t _ => flushed_eq m c t) covered

/-- The run with the result named: it ends at `logits` of the arguments, the arguments unchanged. -/
theorem value_run : θ_run defs (onTc (τ := τ) (main (F := Ideal))) ⟨m, fun _ => 0, ρ⟩ (fun r => ∀ c : Dev nD,
      r.2.mem ((c.tc : Thread nD τ).loc main_v1) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 2).trans (final m c),
     ((h c).2 main_arg0 (Pipeline.mem_restRefs_of main_arg0 (by decide) (by decide))).trans (V_main_arg0 m c),
     ((h c).1 1).trans (((dats m 0 c).arrAt_in 1 rfl _).trans ((A_eq m c 1).trans (V_main_arg1 m c)))⟩) (run_main m ρ)

end Cert.KernelIdeal.Hand

end
-- ==== Proof.RefLogits.lean ====
/-
  The reference computes the specification.

  The reference transposes the weights and contracts the feature matrix's columns with the transposed matrix's rows:
  entry `(i, j)` is `∑ k, x[i, k] · wᵀ[k, j]`, and `wᵀ[k, j]` is `w[j, k]`. That is `logits x w` term by term.
-/
import proofs.«103286_g12781822673385_cont_fleet_1281_6_alg».proof.Proof.Gen.ReferenceIdeal.Read
import proofs.«103286_g12781822673385_cont_fleet_1281_6_alg».proof.Proof.Logits

noncomputable section

namespace Cert.ReferenceIdeal.RefValue

open Cert.ReferenceIdeal Cert.ReferenceIdeal.Gen Cert.ReferenceIdeal.Read Idealize.ShloMosaic Idealize.ShloMosaic.ValueIdx Cert.Logits

/-- The reference's result, as a function of its two arguments, is the specification. -/
theorem reference_eq (x : FVec Ideal S1024x512 .f32) (w : FVec Ideal S100000x512 .f32) :
    val_main_v1 (F := Ideal) x w = logits x w := by
  funext i
  rw [val_main_v1_apply]
  show _ = ∑ k : Fin 512, x (ix2 ⟨(i 0).val, idx2_lt0 i⟩ k) * w (ix2 ⟨(i 1).val, idx2_lt1 i⟩ k)
  refine Finset.sum_congr rfl fun k _ => ?_
  rw [val_main_v0_apply]
  have ex : lidx_main_v1 i k = ix2 ⟨(i 0).val, idx2_lt0 i⟩ k := funext fun a => by
    match a with
    | ⟨0, _⟩ => rfl
    | ⟨1, _⟩ => rfl
  have ew : idx_main_v0 (ridx_main_v1 i k) = ix2 ⟨(i 1).val, idx2_lt1 i⟩ k := funext fun a => by
    match a with
    | ⟨0, _⟩ => rfl
    | ⟨1, _⟩ => rfl
  rw [ex, ew]

end Cert.ReferenceIdeal.RefValue

end
-- ==== Proof.lean ====
/-
  logits = features · weightsᵀ: a Pallas kernel that streams the weight rows through the matrix unit in blocks of 2048,
  against `jnp.dot(features, weights.T)`.

  Over the extended reals a change of float format is the identity and the matrix unit's product into a zero
  accumulator is the plain sum, so entry `(i, j)` of the kernel's result is `∑ k, x[i, k] · w[j, k]` (the 512 terms in
  index order), and so is the reference's `dot_general` of `x` with the transposed weights: the two results are one
  function of the arguments, `Cert.Logits.logits`, term by term; no law of the extended reals is used and the inputs'
  finiteness is never opened.

  The kernel's grid has 49 points and 49 · 2048 = 100352 > 100000: the last weight block runs 352 rows past the array
  and the staging rows there hold values nobody names; the last result block is written back on its first 1696 columns
  only. Column `q` of a result block reads row `q` of the weight block and no other, so the columns written back never
  see the unnamed rows (Proof/IdealData.lean `written_eq`), and the blocks written back cover the result array.

  The word-level kernel's frame (Proof/KernelFrame.lean) says nothing of values: the matrix unit's product is not
  described entry by entry at that level, and the frame does not need it — the body owns its three buffers, and no
  address or branch depends on what it loads. The idealized kernel's frame and value come from one run over exact proof
  data (Proof/IdealData.lean); the reference's from its run read back (the generated run and read-at-an-index modules),
  shown to be `logits` in Proof/RefLogits.lean.
-/
import proofs.«103286_g12781822673385_cont_fleet_1281_6_alg».proof.Defs
import proofs.«103286_g12781822673385_cont_fleet_1281_6_alg».proof.Proof.Gen.Kernel
import proofs.«103286_g12781822673385_cont_fleet_1281_6_alg».proof.Proof.Gen.KernelIdeal
import proofs.«103286_g12781822673385_cont_fleet_1281_6_alg».proof.Proof.Gen.ReferenceIdeal
import proofs.«103286_g12781822673385_cont_fleet_1281_6_alg».proof.Proof.Gen.Pre_finite_inputs
import proofs.«103286_g12781822673385_cont_fleet_1281_6_alg».proof.Proof.Gen.ReferenceIdeal.Run
import proofs.«103286_g12781822673385_cont_fleet_1281_6_alg».proof.Proof.Gen.ReferenceIdeal.Read
import proofs.«103286_g12781822673385_cont_fleet_1281_6_alg».proof.Proof.KernelFrame
import proofs.«103286_g12781822673385_cont_fleet_1281_6_alg».proof.Proof.IdealData
import proofs.«103286_g12781822673385_cont_fleet_1281_6_alg».proof.Proof.RefLogits
import Idealize.ShloMosaic.Adequacy
import Idealize.ShloMosaic.Init

noncomputable section

namespace Cert.Proof

open Idealize.ShloMosaic Idealize.SL.Sem

/-- The reference has no kernel: its frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end holding `logits` of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.target m c, Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.reference_eq, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame m ρ,
  frame_reference,
  trivial,
  algebraic⟩

end Cert.Proof

end
